-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  natLt_1_32 : 1 < 32
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096, .i1⟩
  | .hbm, ⟨25, _⟩ => ⟨S4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S_, .f32⟩
  | .hbm, ⟨34, _⟩ => ⟨S1x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S1x4096, .f32⟩
  | .hbm, ⟨39, _⟩ => ⟨S4096x4096, .f32⟩
  | .hbm, ⟨40, _⟩ => ⟨S4096x4096, .i1⟩
  | .hbm, ⟨41, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_3 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.CasePieces.lean ====
/-
  What one trip of the kernel body leaves behind, case by case, as plain functions of what it read.

  The body keeps a running [1024, 1024] block in a scratch buffer.  On the first trip of a run along the
  contraction axis it stores zeros there and then adds the trip's partial product, so the scratch ends at
  "step (zeros)"; on every later trip it ends at "step (what the trip before left)".  On the last trip of a run
  the output block is the closing elementwise map applied to the scratch as that same trip left it, together with
  the three [1, 1024] row blocks.  Here "step" and "closing map" are the body's own arithmetic terms; nothing is
  computed yet, the statements only say which term sits where.
-/
import proofs.«138252_j22660247454003_1_alg».proof.Proof.Gen.KernelIdeal.Frame
import Idealize.ShloMosaic.Lib.Pipeline.Value
import Idealize.ShloMosaic.Lib.Tactic

noncomputable section

namespace Cert.KernelIdeal.Found

open Cert.KernelIdeal Cert.KernelIdeal.Gen Idealize.ShloMosaic Idealize.ShloMosaic.TcCoe Idealize.ShloMosaic.Tactic Idealize.SL.Sem

variable {F : FTy → Type} [FloatOps F]

/-- The zero offset pair, spelt as a constant function. -/
theorem hz : (![0, 0] : Fin 2 → Nat) = fun _ => 0 := funext fun a => by fin_cases a <;> rfl

/-- First trip of a run: the scratch ends at one accumulation step over the freshly stored zeros. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x512 .f32) (x1 : Vec F S1024x512 .f32) (x2 : Vec F S1x1024 .f32) (x3 : Vec F S1x1024 .f32) (x4 : Vec F S1x1024 .f32) :
    sout0_A_0 c i arg3 harg3 arg4 harg4 arg5 harg5 arg6 harg6 arg7 harg7 arg8 harg8 arg9 harg9 hc0 hc1 x0 x1 x2 x3 x4 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle trip: one accumulation step over what the trip before left. -/
theorem scratch_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x512 .f32) (x1 : Vec F S1024x512 .f32) (x2 : Vec F S1x1024 .f32) (x3 : Vec F S1x1024 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg9.read_unread,
    View.ld_unit_zero (S := S1024x512) hz, View.ld_unit_zero (S := S1024x1024) hz]

/-- The last trip of a run does the same to the scratch. -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S1024x512 .f32) (x2 : Vec F S1x1024 .f32) (x3 : Vec F S1x1024 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg9.read_unread,
    View.ld_unit_zero (S := S1024x512) hz, View.ld_unit_zero (S := S1024x1024) hz]

/-- The last trip's output block: the closing map of the scratch as this trip left it, with the refractory,
    membrane and threshold row blocks (windows 4, 2 and 3, in that order of use). -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S1024x512 .f32) (x2 : Vec F S1x1024 .f32) (x3 : Vec F S1x1024 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x0 x1 xs0) x4 x2 x3 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg7.read_unread, harg9.read_unread, View.ld_unit_zero (S := S1024x512) hz,
    View.ld_unit_zero (S := S1024x1024) hz, View.ld_unit_zero (S := S1x1024) hz]

end Cert.KernelIdeal.Found

end
-- ==== Proof.Spec.lean ====
/-
  The function both programs compute, entry by entry, over the extended reals.

  A synaptic state s is read as the ternary weight  w(s) = 1 if s > 1, -1 if s < -1, else 0.  The input current
  of sample p into neuron q is  I(p, q) = ∑_{k < 4096} spike(p, k) · w(syn(q, k)).  Neuron q is refractory when
  refc(q) > 0; with r(q) = 1 or 0 accordingly the new membrane value is  mem(q) · 0.8 + I(p, q) · (1 - r(q)),
  where 0.8 stands for the one single-precision word both programs carry, and the result is 1 where that value is
  at least thr(q), else 0.

  Two small facts are also kept here.  A sum over 4096 positions is the sum, over 8 consecutive stretches of
  512, of the stretches' sums (addition in a commutative monoid: no finiteness is asked).  And a one-bit word
  widened to 32 bits and read as a signed integer is the bit itself read as an unsigned one.
-/
import Idealize.ShloMosaic.Lib.ValueIdx
import Idealize.ShloMosaic.PureOps.Ideal.Laws

noncomputable section

namespace Cert.Snn

open Idealize.ShloMosaic Idealize.ShloMosaic.ValueIdx

/-- The [4096, 4096] arrays (spikes, synaptic states, the result) and the [4096] per-neuron vectors. -/
abbrev Mat : Shape := ⟨2, ![4096, 4096]⟩
abbrev Row : Shape := ⟨1, ![4096]⟩

/-- The ternary weight of a synaptic state. -/
def tern (s : Ideal .f32) : Ideal .f32 :=
  Scalar.select (FloatOps.cmpf .ogt s (Ideal.ofBits .f32 0x3F800000#32)) (Ideal.ofBits .f32 0x3F800000#32)
    (Scalar.select (FloatOps.cmpf .olt s (Ideal.ofBits .f32 0xBF800000#32)) (Ideal.ofBits .f32 0xBF800000#32)
      (Ideal.ofBits .f32 0x00000000#32))

/-- The spike test of one neuron for one sample, from its input current and its three state values. -/
def fire (cur mem thr refc : Ideal .f32) : Ideal .f32 :=
  FloatOps.uitofp .f32 (FloatOps.cmpf .oge
    (mem * Ideal.ofBits .f32 0x3F4CCCCD#32
      + cur * (Ideal.ofBits .f32 0x3F800000#32
          - FloatOps.uitofp .f32 (FloatOps.cmpf .ogt refc (Ideal.ofBits .f32 0x00000000#32))))
    thr)

/-- One term of the input current. -/
def term (X0 X1 : Mat.Idx → Ideal .f32) (p q : Fin 4096) (k : ℕ) : Ideal .f32 :=
  if h : k < 4096 then X0 (ix2 p ⟨k, h⟩) * tern (X1 (ix2 q ⟨k, h⟩)) else 0

/-- The input current of sample `p` into neuron `q`. -/
def current (X0 X1 : Mat.Idx → Ideal .f32) (p q : Fin 4096) : Ideal .f32 :=
  ∑ k : Fin 4096, term X0 X1 p q k.val

/-- The result array. -/
def G (X0 X1 : Mat.Idx → Ideal .f32) (X2 X3 X4 : Row.Idx → Ideal .f32) : Mat.Idx → Ideal .f32 := fun i =>
  fire (current X0 X1 (i 0) (i 1)) (X2 (ix1 (i 1))) (X3 (ix1 (i 1))) (X4 (ix1 (i 1)))

/-- Eight consecutive stretches of 512 make up 4096. -/
theorem sum_stretches {M : Type*} [AddCommMonoid M] (f : ℕ → M) :
    ∑ s ∈ Finset.range 8, ∑ k : Fin 512, f (512 * s + k.val) = ∑ k : Fin 4096, f k.val := by
  rw [Finset.sum_range, ← Fintype.sum_prod_type']
  refine Fintype.sum_equiv (finProdFinEquiv (m := 8) (n := 512)) _ (fun k : Fin (8 * 512) => f k.val) fun x => ?_
  show f (512 * x.1.val + x.2.val) = f (x.2.val + 512 * x.1.val)
  rw [Nat.add_comm]

/-- A bit widened to a word and read signed is the bit read unsigned. -/
theorem sitofp_widen (b : BitVec 1) :
    FloatOps.sitofp (F := Ideal) .f32 (b.setWidth 32) = FloatOps.uitofp (F := Ideal) .f32 b := by
  by_cases h : b = 1#1
  · subst h; show (((1#1 : BitVec 1).setWidth 32).toInt : ℝ) = (((1#1 : BitVec 1).toNat : ℝ) : EReal); norm_num
  · obtain rfl := eq_zero_of_ne_one h
    show (((0#1 : BitVec 1).setWidth 32).toInt : ℝ) = (((0#1 : BitVec 1).toNat : ℝ) : EReal); norm_num

end Cert.Snn

end
-- ==== Proof.BodyValue.lean ====
/-
  The kernel body's arithmetic read at one entry, at the exact (extended real) values.

  The partial product of a trip contracts the second axis of BOTH its [1024, 512] operands: entry (p, q) is
  ∑_{k < 512} l(p, k) · r(q, k).  The left operand is the spike block as loaded (a change of float format is
  the identity here) and the right one the ternary weights of the synaptic block, so one accumulation step
  leaves  acc(p, q) + ∑_{k < 512} spike(p, k) · w(syn(q, k)).  The reset stores the zero word, which is the real 0.
  The closing map of the last trip is the spike test of the specification, fed the accumulated current at
  (p, q) and the three row blocks at column q (each broadcast down the 1024 rows); the kernel widens its two
  comparison bits and converts them as signed words, which gives the same 0 or 1 as converting the bits.
-/
import proofs.«138252_j22660247454003_1_alg».proof.Proof.Gen.KernelIdeal.Skeleton
import proofs.«138252_j22660247454003_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Body
open Cert.KernelIdeal Cert.KernelIdeal.Gen Idealize.ShloMosaic Idealize.ShloMosaic.ValueIdx Cert.Snn

/-- Left operand, axis 0: the result's row. -/
theorem lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- Left operand, axis 1: the contraction position. -/
theorem lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- Right operand, axis 0: the result's column. -/
theorem rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- Right operand, axis 1: the contraction position. -/
theorem rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- A trip's partial product into the zero block, at entry (p, q). -/
theorem partial_apply (l r : FVec Ideal S1024x512 .bf16) (p q : Fin 1024) :
    matmul dot_S1024x512_S1024x512_S1024x1024_1_1_0_0_n_n none l r (constant S1024x1024 .f32 0x00000000#32) (ix2 p q)
      = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The reset block is zero everywhere. -/
theorem zero_apply (i : S1024x1024.Idx) : k0_pay1 (F := Ideal) i = 0 := by
  unfold k0_pay1
  simp only [shapeCast_self]
  show Ideal.ofBits .f32 0x00000000#32 = 0
  exact Ideal.ofBits_zero_f32

/-- One accumulation step at entry (p, q). -/
theorem step_apply (x0 x1 : Vec Ideal S1024x512 .f32) (acc : Vec Ideal S1024x1024 .f32) (p q : Fin 1024) :
    k0_pay2 x0 x1 acc (ix2 p q) = acc (ix2 p q) + ∑ k : Fin 512, x0 (ix2 p k) * tern (x1 (ix2 q k)) := by
  unfold k0_pay2
  simp only [shapeCast_self]
  refine (addf_apply _ _ _).trans ?_
  refine congrArg (acc (ix2 p q) + ·) ?_
  refine (partial_apply _ _ p q).trans ?_
  rfl

/-- The closing map at entry (p, q): the spike test on the accumulated current and column q of the row blocks. -/
theorem close_apply (acc : Vec Ideal S1024x1024 .f32) (xr xm xt : Vec Ideal S1x1024 .f32) (p q : Fin 1024) :
    k0_pay3 acc xr xm xt (ix2 p q)
      = fire (acc (ix2 p q)) (xm (ix2 (0 : Fin 1) q)) (xt (ix2 (0 : Fin 1) q)) (xr (ix2 (0 : Fin 1) q)) := by
  unfold k0_pay3
  simp only [shapeCast_self, sitofp_apply, extui_apply, cmpf_apply, addf_apply, mulf_apply, subf_apply,
    broadcastTo_1b_ab_apply, broadcast_apply, sitofp_widen]
  rfl

end Cert.KernelIdeal.Body
end
-- ==== Proof.KernelValue.lean ====
/-
  The idealized kernel's result array is the specification's function of the argument arrays.

  The grid has 4 × 4 × 8 points; point t = 32·a + 8·b + s is row block a, neuron block b, contraction stretch s.
  At that point the spike window holds rows 1024a … 1024a+1023 and columns 512s … 512s+511 of the spike array,
  the synapse window holds rows 1024b … of the synaptic states over the same columns, and each of the three row
  windows holds columns 1024b … 1024b+1023 of its per-neuron vector (reshaped to one row by the host).

  Along a run of eight points with a and b fixed the scratch block is reset and then accumulated, so after the
  run's j-th point its entry (p, q) is the sum of the first j+1 stretches' partial sums
  ∑_{k<512} spike(1024a+p, 512s+k) · w(syn(1024b+q, 512s+k)); after the eighth, the eight stretches together are
  the whole contraction over 4096 positions: the input current I(1024a+p, 1024b+q).  The last point of the run
  applies the spike test to it and to column 1024b+q of the three vectors, and writes the block back to rows
  1024a …, columns 1024b … of the result.  The sixteen blocks written back tile the result array, so the array
  ends at the specification's function everywhere.
-/
import proofs.«138252_j22660247454003_1_alg».proof.Proof.Gen.KernelIdeal.Value
import proofs.«138252_j22660247454003_1_alg».proof.Proof.CasePieces
import proofs.«138252_j22660247454003_1_alg».proof.Proof.BodyValue
import proofs.«138252_j22660247454003_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section
namespace Cert.KernelIdeal.Whole
open Cert.KernelIdeal Cert.KernelIdeal.Gen Idealize.ShloMosaic Idealize.ShloMosaic.TcCoe Idealize.SL.Sem
open Idealize.ShloMosaic.ValueIdx Cert.Snn
open Idealize.ShloMosaic.Pipeline (Dat)

variable (m : (ℓ : Loc nD τ sig) → Buf (Elt Ideal) ℓ) (ρ : Dev nD → PrngReg)

/-- The five argument arrays, at their literal shapes. -/
abbrev X0 (c : Dev nD) : Vec Ideal S4096x4096 .f32 := m ((c : Thread nD τ).loc main_arg0)
abbrev X1 (c : Dev nD) : Vec Ideal S4096x4096 .f32 := m ((c : Thread nD τ).loc main_arg1)
abbrev X2 (c : Dev nD) : Vec Ideal S4096 .f32 := m ((c : Thread nD τ).loc main_arg2)
abbrev X3 (c : Dev nD) : Vec Ideal S4096 .f32 := m ((c : Thread nD τ).loc main_arg3)
abbrev X4 (c : Dev nD) : Vec Ideal S4096 .f32 := m ((c : Thread nD τ).loc main_arg4)

/-- The five input blocks at a grid point, at their literal shapes. -/
abbrev spk (c : Dev nD) (t : Fin cfg0.N) : Vec Ideal S1024x512 .f32 := iblk m c 0 t
abbrev syn (c : Dev nD) (t : Fin cfg0.N) : Vec Ideal S1024x512 .f32 := iblk m c 1 t
abbrev memb (c : Dev nD) (t : Fin cfg0.N) : Vec Ideal S1x1024 .f32 := iblk m c 2 t
abbrev thrb (c : Dev nD) (t : Fin cfg0.N) : Vec Ideal S1x1024 .f32 := iblk m c 3 t
abbrev refb (c : Dev nD) (t : Fin cfg0.N) : Vec Ideal S1x1024 .f32 := iblk m c 4 t

/-- The block index of every window at every point, from the point's number (decided over the 128 points). -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-- The spike block at point t, entry (p, k): the spike array at row 1024·(t/32)+p, column 512·(t%8)+k. -/
theorem spk_apply (c : Dev nD) (t : Fin cfg0.N) (p : Fin 1024) (k : Fin 512) (P K : Fin 4096)
    (hP : P.val = 1024 * (t.val / 32) + p.val) (hK : K.val = 512 * (t.val % 8) + k.val) :
    spk m c t (ix2 p k) = X0 m c (ix2 P K) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = P.val; omega
  | ⟨1, _⟩ => show win0_0.index t (1 : Fin 2) * 512 + 1 * k.val = K.val; omega

/-- The synapse block at point t, entry (q, k): the synaptic states at row 1024·(t/8%4)+q, column 512·(t%8)+k. -/
theorem syn_apply (c : Dev nD) (t : Fin cfg0.N) (q : Fin 1024) (k : Fin 512) (Q K : Fin 4096)
    (hQ : Q.val = 1024 * (t.val / 8 % 4) + q.val) (hK : K.val = 512 * (t.val % 8) + k.val) :
    syn m c t (ix2 q k) = X1 m c (ix2 Q K) := by
  obtain ⟨-, -, e0, e1, -⟩ := idx_facts t
  show V m c main_arg1 (((cfg0.win 1).blk t).view.emb (ix2 q k)) = _
  rw [V_main_arg1]
  refine congrArg (m ((c : Thread nD τ).loc main_arg1)) (funext fun a => Fin.ext ?_)
  match a with
  | ⟨0, _⟩ => show win0_1.index t (0 : Fin 2) * 1024 + 1 * q.val = Q.val; omega
  | ⟨1, _⟩ => show win0_1.index t (1 : Fin 2) * 512 + 1 * k.val = K.val; omega

/-- The host reshapes each per-neuron vector to one row before the region. -/
theorem V_mem (c : Dev nD) : (V m c main_v0 : S1x4096.Idx → Ideal .f32) = shapeCast S1x4096 (X2 m c) shapeCasts_S4096_S1x4096 := by
  dsimp only [Gen.V, Gen.hostOps0]; after_results; rfl
theorem V_thr (c : Dev nD) : (V m c main_v1 : S1x4096.Idx → Ideal .f32) = shapeCast S1x4096 (X3 m c) shapeCasts_S4096_S1x4096 := by
  dsimp only [Gen.V, Gen.hostOps0]; after_results; rfl
theorem V_ref (c : Dev nD) : (V m c main_v2 : S1x4096.Idx → Ideal .f32) = shapeCast S1x4096 (X4 m c) shapeCasts_S4096_S1x4096 := by
  dsimp only [Gen.V, Gen.hostOps0]; after_results; rfl

/-- The membrane row block at point t, column q: the membrane vector at 1024·(t/8%4)+q. -/
theorem memb_apply (c : Dev nD) (t : Fin cfg0.N) (q : Fin 1024) (Q : Fin 4096)
    (hQ : Q.val = 1024 * (t.val / 8 % 4) + q.val) :
    memb m c t (ix2 (0 : Fin 1) q) = X2 m c (ix1 Q) := by
  obtain ⟨-, -, -, -, e0, e1, -⟩ := idx_facts t
  show V m c main_v0 (((cfg0.win 2).blk t).view.emb (ix2 (0 : Fin 1) q)) = _
  rw [V_mem]
  have he : ((cfg0.win 2).blk t).view.emb (ix2 (0 : Fin 1) q) = ix2 (0 : Fin 1) Q := funext fun a => Fin.ext (by
    match a with
    | ⟨0, _⟩ => show win0_2.index t (0 : Fin 2) * 1 + 1 * 0 = 0; omega
    | ⟨1, _⟩ => show win0_2.index t (1 : Fin 2) * 1024 + 1 * q.val = Q.val; omega)
  rw [he]
  exact shapeCast_a_1a_apply _ _ _ _

/-- At the first point of a run the scratch ends at one accumulation step over zeros, whatever it held. -/
theorem scAt_reset (c : Dev nD) (n : ℕ) (hb : n < cfg0.N) (h0 : n % 8 = 0) (acc : Vec Ideal S1024x1024 .f32) :
    Value.scAt0_0 m c n hb acc = k0_pay2 (spk m c ⟨n, hb⟩) (syn m c ⟨n, hb⟩) (k0_pay1 (F := Ideal)) := by
  have h1 : ¬ n % 8 = 7 := by omega
  unfold Value.scAt0_0
  rw [dif_pos h0, dif_neg h1]
  exact Found.scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every other point: one accumulation step over what the point before left. -/
theorem scAt_step (c : Dev nD) (n : ℕ) (hb : n < cfg0.N) (h0 : ¬ n % 8 = 0) (acc : Vec Ideal S1024x1024 .f32) :
    Value.scAt0_0 m c n hb acc = k0_pay2 (spk m c ⟨n, hb⟩) (syn m c ⟨n, hb⟩) acc := by
  unfold Value.scAt0_0
  rw [dif_neg h0]
  by_cases h1 : n % 8 = 7
  · rw [dif_pos h1]
    exact Found.scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Found.scratch_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- Point n's contribution to the scratch: the partial sum of its stretch, at an entry of the block. -/
def addend (c : Dev nD) (n : ℕ) (i : S1024x1024.Idx) : Ideal .f32 :=
  if h : n < cfg0.N then ∑ k : Fin 512, spk m c ⟨n, h⟩ (ix2 (i 0) k) * tern (syn m c ⟨n, h⟩ (ix2 (i 1) k)) else 0

/-- The scratch after point t: the contributions of its run's points up to t, added up. -/
theorem scratch_sum (c : Dev nD) (t : Fin cfg0.N) (i : S1024x1024.Idx) :
    (outsAt0 m c t.val t.isLt).2 i = 0 + ∑ s ∈ Finset.range (t.val % 8 + 1), addend m c (8 * (t.val / 8) + s) i := by
  rw [Value.soutsAt0_0_eq m c t]
  refine Pipeline.accAt_add_apply (β := EReal) (fun n h => Value.scAt0_0 m c n h (VS0_0.read (Elt Ideal) VS0_0.junk)) (Value.scAt0_0 m c)
    (fun _ => 0) (addend m c) (8 * (t.val / 8)) 7 ?_ ?_ (t.val % 8) (by omega) _ i
  · intro h j
    obtain ⟨p, q, rfl⟩ : ∃ (p q : Fin 1024), j = ix2 p q := ⟨j 0, j 1, eq_ix2 j⟩
    show Value.scAt0_0 m c (8 * (t.val / 8)) h _ (ix2 p q) = _
    rw [scAt_reset m c _ h (by omega), Body.step_apply, Body.zero_apply]
    unfold addend
    rw [dif_pos h]
  · intro n h acc j hlo hhi
    obtain ⟨p, q, rfl⟩ : ∃ (p q : Fin 1024), j = ix2 p q := ⟨j 0, j 1, eq_ix2 j⟩
    rw [scAt_step m c n h (by omega), Body.step_apply]
    unfold addend
    rw [dif_pos h]

/-- The s-th point of t's run contributes the s-th stretch of 512 terms of the input current. -/
theorem addend_eq (c : Dev nD) (t : Fin cfg0.N) (s : ℕ) (hs : s < 8) (p q : Fin 1024) (P Q : Fin 4096)
    (hP : P.val = 1024 * (t.val / 32) + p.val) (hQ : Q.val = 1024 * (t.val / 8 % 4) + q.val) :
    addend m c (8 * (t.val / 8) + s) (ix2 p q) = ∑ k : Fin 512, term (X0 m c) (X1 m c) P Q (512 * s + k.val) := by
  have hN : cfg0.N = 128 := N_0
  have ht : t.val < 128 := lt_of_lt_of_eq t.isLt hN
  have hn : 8 * (t.val / 8) + s < cfg0.N := lt_of_lt_of_eq (by omega : 8 * (t.val / 8) + s < 128) hN.symm
  unfold addend
  rw [dif_pos hn]
  refine Finset.sum_congr rfl fun k _ => ?_
  have hk : 512 * s + k.val < 4096 := by have := k.isLt; omega
  unfold term
  rw [dif_pos hk]
  rw [spk_apply m c ⟨8 * (t.val / 8) + s, hn⟩ p k P ⟨512 * s + k.val, hk⟩ (by show P.val = 1024 * ((8 * (t.val / 8) + s) / 32) + p.val; omega) (by show 512 * s + k.val = 512 * ((8 * (t.val / 8) + s) % 8) + k.val; omega),
    syn_apply m c ⟨8 * (t.val / 8) + s, hn⟩ q k Q ⟨512 * s + k.val, hk⟩ (by show Q.val = 1024 * ((8 * (t.val / 8) + s) / 8 % 4) + q.val; omega) (by show 512 * s + k.val = 512 * ((8 * (t.val / 8) + s) % 8) + k.val; omega)]

/-- After the last point of a run the scratch holds the input current of the run's block. -/
theorem full_current (c : Dev nD) (t : Fin cfg0.N) (h1 : t.val % 8 = 7) (p q : Fin 1024) (P Q : Fin 4096)
    (hP : P.val = 1024 * (t.val / 32) + p.val) (hQ : Q.val = 1024 * (t.val / 8 % 4) + q.val) :
    (outsAt0 m c t.val t.isLt).2 (ix2 p q) = current (X0 m c) (X1 m c) P Q := by
  rw [scratch_sum, zero_add, h1]
  unfold current
  rw [← sum_stretches]
  exact Finset.sum_congr rfl fun s hs => addend_eq m c t s (Finset.mem_range.mp hs) p q P Q hP hQ

/-- The threshold row block, likewise. -/
theorem thrb_apply (c : Dev nD) (t : Fin cfg0.N) (q : Fin 1024) (Q : Fin 4096)
    (hQ : Q.val = 1024 * (t.val / 8 % 4) + q.val) :
    thrb m c t (ix2 (0 : Fin 1) q) = X3 m c (ix1 Q) := by
  obtain ⟨-, -, -, -, -, -, e0, e1, e2, e3, -⟩ := idx_facts t
  show V m c main_v1 (((cfg0.win 3).blk t).view.emb (ix2 (0 : Fin 1) q)) = _
  rw [V_thr]
  have he : ((cfg0.win 3).blk t).view.emb (ix2 (0 : Fin 1) q) = ix2 (0 : Fin 1) Q := funext fun a => Fin.ext (by
    match a with
    | ⟨0, _⟩ => show win0_3.index t (0 : Fin 2) * 1 + 1 * 0 = 0; omega
    | ⟨1, _⟩ => show win0_3.index t (1 : Fin 2) * 1024 + 1 * q.val = Q.val; omega)
  rw [he]
  exact shapeCast_a_1a_apply _ _ _ _

/-- The refractory row block, likewise. -/
theorem refb_apply (c : Dev nD) (t : Fin cfg0.N) (q : Fin 1024) (Q : Fin 4096)
    (hQ : Q.val = 1024 * (t.val / 8 % 4) + q.val) :
    refb m c t (ix2 (0 : Fin 1) q) = X4 m c (ix1 Q) := by
  obtain ⟨-, -, -, -, -, -, e0, e1, e2, e3, -⟩ := idx_facts t
  show V m c main_v2 (((cfg0.win 4).blk t).view.emb (ix2 (0 : Fin 1) q)) = _
  rw [V_ref]
  have he : ((cfg0.win 4).blk t).view.emb (ix2 (0 : Fin 1) q) = ix2 (0 : Fin 1) Q := funext fun a => Fin.ext (by
    match a with
    | ⟨0, _⟩ => show win0_4.index t (0 : Fin 2) * 1 + 1 * 0 = 0; omega
    | ⟨1, _⟩ => show win0_4.index t (1 : Fin 2) * 1024 + 1 * q.val = Q.val; omega)
  rw [he]
  exact shapeCast_a_1a_apply _ _ _ _

/-- What the last point of a run writes back is its block of the specification's function. -/
theorem flushed_eq (c : Dev nD) (t : Fin cfg0.N) (hf : (cfg0.win 5).flush t = true) :
    (dats m 0 c).flushed 5 t = ((cfg0.win 5).blk t).view.read (Elt Ideal) (G (X0 m c) (X1 m c) (X2 m c) (X3 m c) (X4 m c)) := by
  have h1 : t.val % 8 = 7 := (flush0_5 t).mp hf
  have h0 : ¬ t.val % 8 = 0 := by omega
  have hN : cfg0.N = 128 := N_0
  have ht : t.val < 128 := lt_of_lt_of_eq t.isLt hN
  obtain ⟨-, -, -, -, -, -, -, -, -, -, e0, e1⟩ := idx_facts t
  have hsc : k0_pay2 (spk m c t) (syn m c t) (outsAt0 m c (t.val - 1) (Nat.lt_of_le_of_lt (Nat.sub_le _ _) t.isLt)).2
      = (outsAt0 m c t.val t.isLt).2 := by
    rw [outsAt0_C m c t h0 h1]
    dsimp only
    exact (Found.scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm
  rw [Value.flushed5_C m c t h0 h1,
    Found.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  funext y
  obtain ⟨p, q, rfl⟩ : ∃ (p q : Fin 1024), y = ix2 p q := ⟨y 0, y 1, eq_ix2 (n0 := 1024) (n1 := 1024) y⟩
  have hP : 1024 * (t.val / 32) + p.val < 4096 := by have := p.isLt; omega
  have hQ : 1024 * (t.val / 8 % 4) + q.val < 4096 := by have := q.isLt; omega
  have he : ((cfg0.win 5).blk t).view.emb (ix2 p q) = ix2 (⟨_, hP⟩ : Fin 4096) (⟨_, hQ⟩ : Fin 4096) := funext fun a => Fin.ext (by
    match a with
    | ⟨0, _⟩ => show win0_5.index t (0 : Fin 2) * 1024 + 1 * p.val = 1024 * (t.val / 32) + p.val; omega
    | ⟨1, _⟩ => show win0_5.index t (1 : Fin 2) * 1024 + 1 * q.val = 1024 * (t.val / 8 % 4) + q.val; omega)
  rw [View.read_apply, he]
  show k0_pay3 (k0_pay2 (spk m c t) (syn m c t) _) (refb m c t) (memb m c t) (thrb m c t) (ix2 p q) = _
  rw [hsc, Body.close_apply, full_current m c t h1 p q ⟨_, hP⟩ ⟨_, hQ⟩ rfl rfl,
    memb_apply m c t q ⟨_, hQ⟩ rfl, thrb_apply m c t q ⟨_, hQ⟩ rfl, refb_apply m c t q ⟨_, hQ⟩ rfl]
  rfl

/-- An index is in point t's output block iff each coordinate is in the block's range. -/
theorem mem_blk (t : Fin cfg0.N) (i : S4096x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v3).slice (win0_5.rect t)).set ↔ _
  rw [View.set_slice_whole, Rect.mem_set_unit]
  exact Iff.rfl

/-- Every index of the result lies in the block some run's last point writes back: the run of its row and neuron blocks. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 128 := N_0
  have hlt : 32 * ((i 0).val / 1024) + 8 * ((i 1).val / 1024) + 7 < cfg0.N := lt_of_lt_of_eq (by omega : _ < 128) hN.symm
  refine ⟨⟨_, hlt⟩, (flush0_5 _).mpr (by show (32 * ((i 0).val / 1024) + 8 * ((i 1).val / 1024) + 7) % 8 = 7; omega), ?_⟩
  obtain ⟨-, -, -, -, -, -, -, -, -, -, e0, e1⟩ := idx_facts ⟨_, hlt⟩
  rw [mem_blk]
  intro a
  match a with
  | ⟨0, _⟩ =>
    show win0_5.index _ (0 : Fin 2) * 1024 ≤ (i 0).val ∧ (i 0).val < win0_5.index _ (0 : Fin 2) * 1024 + 1024
    rw [e0]; show (32 * ((i 0).val / 1024) + 8 * ((i 1).val / 1024) + 7) / 32 * 1024 ≤ _ ∧ _ < (32 * ((i 0).val / 1024) + 8 * ((i 1).val / 1024) + 7) / 32 * 1024 + 1024; omega
  | ⟨1, _⟩ =>
    show win0_5.index _ (1 : Fin 2) * 1024 ≤ (i 1).val ∧ (i 1).val < win0_5.index _ (1 : Fin 2) * 1024 + 1024
    rw [e1]; show (32 * ((i 0).val / 1024) + 8 * ((i 1).val / 1024) + 7) / 8 % 4 * 1024 ≤ _ ∧ _ < (32 * ((i 0).val / 1024) + 8 * ((i 1).val / 1024) + 7) / 8 % 4 * 1024 + 1024; omega

/-- The result array after the region. -/
theorem final (c : Dev nD) : (dats m 0 c).arrAt 5 cfg0.N = (G (X0 m c) (X1 m c) (X2 m c) (X3 m c) (X4 m c)) :=
  (dats m 0 c).arrAt_eq_of_cover 5 (G (X0 m c) (X1 m c) (X2 m c) (X3 m c) (X4 m c)) (fun t hf => flushed_eq m c t hf) cover

/-- The idealized kernel runs, ends with the specification's function in its result and leaves its arguments alone. -/
theorem run : θ_run defs (onTc (τ := τ) (main (F := Ideal))) ⟨m, fun _ => 0, ρ⟩ fun r => ∀ c : Dev nD,
      r.2.mem ((c : Thread nD τ).loc main_v3) = (G (X0 m c) (X1 m c) (X2 m c) (X3 m c) (X4 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole
end
-- ==== Proof.RefValue.lean ====
/-
  The idealized reference's result is the specification's function of the argument arrays.

  The reference builds the whole ternary weight matrix w(syn), transposes it, and takes one matrix product with the
  spike array: entry (p, q) is ∑_{k<4096} spike(p, k) · wᵀ(k, q) = ∑_k spike(p, k) · w(syn(q, k)), the input current.
  The rest is elementwise over broadcasts of the three per-neuron vectors along the sample axis, in the same order
  of operations as the specification's spike test.
-/
import proofs.«138252_j22660247454003_1_alg».proof.Proof.Gen.ReferenceIdeal.Read
import proofs.«138252_j22660247454003_1_alg».proof.Proof.Spec
import Idealize.ShloMosaic.Lib.ValueIdx

noncomputable section
namespace Cert.ReferenceIdeal.Whole
open Cert.ReferenceIdeal Cert.ReferenceIdeal.Gen Cert.ReferenceIdeal.Read Idealize.ShloMosaic
open Idealize.ShloMosaic.ValueIdx Cert.Snn

/-- The transposed weight matrix at (k, q) is the ternary weight of the synaptic state (q, k). -/
theorem weight_apply (x1 : (⟨S4096x4096, .f32⟩ : BufTy).Contents (Elt Ideal)) (k q : Fin 4096) :
    val_main_v7 (F := Ideal) x1 (ix2 k q) = tern (x1 (ix2 q k)) := by
  have e7 : idx_main_v7 (ix2 k q) = ix2 q k := funext fun a => Fin.ext (by match a with | ⟨0, _⟩ => rfl | ⟨1, _⟩ => rfl)
  rw [val_main_v7_apply, e7, val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The matrix product at (p, q) is the input current. -/
theorem current_apply (x0 x1 : (⟨S4096x4096, .f32⟩ : BufTy).Contents (Elt Ideal)) (p q : Fin 4096) :
    val_main_v8 (F := Ideal) x0 x1 (ix2 p q) = current x0 x1 p q := by
  rw [val_main_v8_apply]
  unfold current
  refine Finset.sum_congr rfl fun k _ => ?_
  have el : lidx_main_v8 (ix2 p q) k = ix2 p k := funext fun a => Fin.ext (by match a with | ⟨0, _⟩ => rfl | ⟨1, _⟩ => rfl)
  have er : ridx_main_v8 (ix2 p q) k = ix2 k q := funext fun a => Fin.ext (by match a with | ⟨0, _⟩ => rfl | ⟨1, _⟩ => rfl)
  unfold term
  rw [dif_pos k.isLt, el, er, weight_apply]

/-- The last stage at (p, q) is the spike test on the input current and entry q of the three vectors. -/
theorem result_apply (x0 x1 : (⟨S4096x4096, .f32⟩ : BufTy).Contents (Elt Ideal)) (x2 x3 x4 : (⟨S4096, .f32⟩ : BufTy).Contents (Elt Ideal)) (p q : Fin 4096) :
    val_main_v25 (F := Ideal) x0 x1 x2 x3 x4 (ix2 p q)
      = fire (current x0 x1 p q) (x2 (ix1 q)) (x3 (ix1 q)) (x4 (ix1 q)) := by
  have e20 : idx_main_v20 (ix2 p q) = ix2 (0 : Fin 1) q := funext fun a => Fin.ext (by match a with | ⟨0, _⟩ => rfl | ⟨1, _⟩ => rfl)
  have e15 : idx_main_v15 (ix2 p q) = ix2 (0 : Fin 1) q := funext fun a => Fin.ext (by match a with | ⟨0, _⟩ => rfl | ⟨1, _⟩ => rfl)
  have e23 : idx_main_v23 (ix2 p q) = ix2 (0 : Fin 1) q := funext fun a => Fin.ext (by match a with | ⟨0, _⟩ => rfl | ⟨1, _⟩ => rfl)
  have e17 : idx_main_v17 (ix2 (0 : Fin 1) q) = ix1 q := funext fun a => Fin.ext (by match a with | ⟨0, _⟩ => rfl)
  have e12 : idx_main_v12 (ix2 (0 : Fin 1) q) = ix1 q := funext fun a => Fin.ext (by match a with | ⟨0, _⟩ => rfl)
  have e22 : idx_main_v22 (ix2 (0 : Fin 1) q) = ix1 q := funext fun a => Fin.ext (by match a with | ⟨0, _⟩ => rfl)
  rw [val_main_v25_apply, val_main_v24_apply, val_main_v21_apply, val_main_v20_apply, e20, val_main_v19_apply,
    val_main_v17_apply, e17, val_main_v18_apply, val_main_cst_6_apply, val_main_v16_apply, current_apply,
    val_main_v15_apply, e15, val_main_v14_apply, val_main_v13_apply, val_main_cst_5_apply, val_main_v12_apply, e12,
    val_main_v11_apply, val_main_v10_apply, val_main_v9_apply, val_main_cst_4_apply, val_main_v23_apply, e23,
    val_main_v22_apply, e22]
  rfl

/-- The reference's result, as a whole array. -/
theorem result_eq (x0 x1 : (⟨S4096x4096, .f32⟩ : BufTy).Contents (Elt Ideal)) (x2 x3 x4 : (⟨S4096, .f32⟩ : BufTy).Contents (Elt Ideal)) :
    val_main_v25 (F := Ideal) x0 x1 x2 x3 x4 = G x0 x1 x2 x3 x4 := by
  funext i
  obtain ⟨p, q, rfl⟩ : ∃ (p q : Fin 4096), i = ix2 p q := ⟨i 0, i 1, eq_ix2 i⟩
  exact result_apply x0 x1 x2 x3 x4 p q

end Cert.ReferenceIdeal.Whole
end
-- ==== Proof.lean ====
/-
  A spiking layer: ternary synaptic weights, one matrix product, a leaky membrane update and a threshold test.

  Both programs compute, for sample p and neuron q, the 0/1 answer to
      mem(q) · 0.8 + I(p, q) · (1 - r(q))  ≥  thr(q),
  where I(p, q) = ∑_{k<4096} spike(p, k) · w(syn(q, k)) with w the ternary weight (1 above 1, -1 below -1, else 0)
  and r(q) is 1 when refc(q) > 0 and 0 otherwise.  The kernel forms I(p, q) as eight partial sums of 512 terms
  accumulated along the last grid axis; the reference forms it as one contraction against the transposed weight
  matrix.  Over the extended reals the two are the same sum regrouped, which needs only that addition is
  commutative and associative, so the precondition is not opened.  The conversions of float format in the kernel are
  identities at these values, and its two comparison bits, widened and converted as signed words, are the same
  0 or 1 as the reference's direct conversions.

  The three frames are the generated runs; no rewrite was applied in idealizing the kernel, so the preservation claim
  is empty; the equivalence sets the kernel's run (result = the specification's function of its arguments) beside the
  reference's run (result = the same function of its arguments) and identifies the arguments.
-/
import proofs.«138252_j22660247454003_1_alg».proof.Defs
import proofs.«138252_j22660247454003_1_alg».proof.Proof.Gen.Kernel
import proofs.«138252_j22660247454003_1_alg».proof.Proof.Gen.Kernel.Skeleton
import proofs.«138252_j22660247454003_1_alg».proof.Proof.Gen.Kernel.Launch
import proofs.«138252_j22660247454003_1_alg».proof.Proof.Gen.Kernel.Points
import proofs.«138252_j22660247454003_1_alg».proof.Proof.Gen.Kernel.Frame
import proofs.«138252_j22660247454003_1_alg».proof.Proof.Gen.KernelIdeal
import proofs.«138252_j22660247454003_1_alg».proof.Proof.Gen.KernelIdeal.Skeleton
import proofs.«138252_j22660247454003_1_alg».proof.Proof.Gen.KernelIdeal.Launch
import proofs.«138252_j22660247454003_1_alg».proof.Proof.Gen.KernelIdeal.Points
import proofs.«138252_j22660247454003_1_alg».proof.Proof.Gen.KernelIdeal.Frame
import proofs.«138252_j22660247454003_1_alg».proof.Proof.Gen.ReferenceIdeal
import proofs.«138252_j22660247454003_1_alg».proof.Proof.Gen.KernelIdeal.Value
import proofs.«138252_j22660247454003_1_alg».proof.Proof.Gen.ReferenceIdeal.Run
import proofs.«138252_j22660247454003_1_alg».proof.Proof.Gen.ReferenceIdeal.Read
import proofs.«138252_j22660247454003_1_alg».proof.Proof.Gen.Pre_finite_inputs
import Idealize.ShloMosaic.Adequacy
import Idealize.ShloMosaic.Init

import proofs.«138252_j22660247454003_1_alg».proof.Proof.KernelValue
import proofs.«138252_j22660247454003_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's function of arguments that agree. -/
theorem algebraic : Cert.algebraic_KernelIdeal_ReferenceIdeal := by
  intro m ρ m' ρ' _ hagree
  refine ⟨fun c => Cert.Snn.G (Cert.KernelIdeal.Whole.X0 m c) (Cert.KernelIdeal.Whole.X1 m c) (Cert.KernelIdeal.Whole.X2 m c)
    (Cert.KernelIdeal.Whole.X3 m c) (Cert.KernelIdeal.Whole.X4 m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Whole.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
